-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_arg4 : FVec F S4x2048x4096 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S4x2048x4096 .f32 := Host.absf main_arg4
  let main_cst_6 : FVec F S_ .f32 := constant S_ .f32 0x7F800000#32
  let main_v20 : FVec F S4x2048x4096 .f32 := broadcastInDim S4x2048x4096 ![] bcast_S_S4x2048x4096 main_cst_6
  let main_v21 : IVec S4x2048x4096 1 := cmpf .olt main_v19 main_v20
  let main_c_7 : IVec S_ 1 := constantI S_ 1 1#1
  let main_v22 : IVec S_ 1 := (fun x v => Host.reduce IntOp.andi x v reducesTo_S4x2048x4096_S_d0_1_2 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x32 .f32) (main_arg3 : FVec F S32x4096 .f32) (main_arg4 : FVec F S4x2048x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32x4096 .f32 := Host.absf main_arg3
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S8192x4096 : Shape := ⟨2, ![8192, 4096]⟩
abbrev S1024x256 : Shape := ⟨2, ![1024, 256]⟩
abbrev S4096x256 : Shape := ⟨2, ![4096, 256]⟩
abbrev S256x32 : Shape := ⟨2, ![256, 32]⟩
abbrev S1024x4096 : Shape := ⟨2, ![1024, 4096]⟩
abbrev S1024x32 : Shape := ⟨2, ![1024, 32]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x32, .f32⟩
  | .hbm, ⟨3, _⟩ => ⟨S32x4096, .f32⟩
  | .hbm, ⟨4, _⟩ => ⟨S4x2048x4096, .f32⟩
  | .hbm, ⟨5, _⟩ => ⟨S8192x4096, .f32⟩
  | .hbm, ⟨6, _⟩ => ⟨S8192x4096, .f32⟩
  | .hbm, ⟨7, _⟩ => ⟨S4096x4096, .bf16⟩
  | .hbm, ⟨8, _⟩ => ⟨S4096x32, .bf16⟩
  | .hbm, ⟨9, _⟩ => ⟨S32x4096, .bf16⟩
  | .hbm, ⟨10, _⟩ => ⟨S8192x4096, .f32⟩
  | .hbm, ⟨11, _⟩ => ⟨S4x2048x4096, .f32⟩
  | .local _ .vmem, ⟨0, _⟩ => ⟨S1024x256, .f32⟩
  | .local _ .vmem, ⟨1, _⟩ => ⟨S1024x256, .f32⟩
  | .local _ .vmem, ⟨2, _⟩ => ⟨S4096x256, .bf16⟩
  | .local _ .vmem, ⟨3, _⟩ => ⟨S4096x256, .bf16⟩
  | .local _ .vmem, ⟨4, _⟩ => ⟨S256x32, .bf16⟩
  | .local _ .vmem, ⟨5, _⟩ => ⟨S256x32, .bf16⟩
  | .local _ .vmem, ⟨6, _⟩ => ⟨S32x4096, .bf16⟩
  | .local _ .vmem, ⟨7, _⟩ => ⟨S1024x256, .f32⟩
  | .local _ .vmem, ⟨8, _⟩ => ⟨S1024x256, .f32⟩
  | .local _ .vmem, ⟨9, _⟩ => ⟨S1024x4096, .f32⟩
  | .local _ .vmem, ⟨10, _⟩ => ⟨S1024x32, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  shapeCasts_S4x2048x4096_S8192x4096 : S4x2048x4096.ShapeCasts S8192x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S1024x4096_S1024x4096 : S1024x4096.ShapeCasts S1024x4096
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  shapeCasts_S8192x4096_S4x2048x4096 : S8192x4096.ShapeCasts S4x2048x4096
  dot_S1024x256_S4096x256_S1024x4096_1_1_0_0_n_n_wf : DotDims.WF S1024x256 S4096x256 S1024x4096 [1] [1] [0] [0] [] []
  dot_S1024x256_S256x32_S1024x32_1_0_0_1_n_n_wf : DotDims.WF S1024x256 S256x32 S1024x32 [1] [0] [0] [1] [] []
  dot_S1024x32_S32x4096_S1024x4096_1_0_0_1_n_n_wf : DotDims.WF S1024x32 S32x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .bf16 = 32 ∨ (Rect.block (s := S4096x32) S256x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x4096.size a
  hwx0_3 : ∀ i : grid0.Coords, EltTy.bits .bf16 = 32 ∨ (Rect.block (s := S32x4096) S32x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x4096.size a
  hwx0_4 : ∀ i : grid0.Coords, EltTy.bits .f32 = 32 ∨ (Rect.block (s := S8192x4096) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S8192x4096.size a
  hwx0_5 : ∀ i : grid0.Coords, EltTy.bits .f32 = 32 ∨ (Rect.block (s := S8192x4096) S1024x4096.size (cc0_transform_5 i) (hinb0_5 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x4096.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S4x2048x32 : Shape := ⟨3, ![4, 2048, 32]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x32, .f32⟩
  | .hbm, ⟨3, _⟩ => ⟨S32x4096, .f32⟩
  | .hbm, ⟨4, _⟩ => ⟨S4x2048x4096, .f32⟩
  | .hbm, ⟨5, _⟩ => ⟨S4x2048x4096, .f32⟩
  | .hbm, ⟨6, _⟩ => ⟨S4x2048x4096, .f32⟩
  | .hbm, ⟨7, _⟩ => ⟨S4x2048x32, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S4096x32_S4x2048x32_2_0_01_1_n_n_wf : DotDims.WF S4x2048x4096 S4096x32 S4x2048x32 [2] [0] [0, 1] [1] [] []
  dot_S4x2048x32_S32x4096_S4x2048x4096_2_0_01_1_n_n_wf : DotDims.WF S4x2048x32 S32x4096 S4x2048x4096 [2] [0] [0, 1] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4096x32_S4x2048x32_2_0_01_1_n_n : DotDims S4x2048x4096 S4096x32 S4x2048x32 where
  lhsContracting := [2]
  rhsContracting := [0]
  lhsNonContracting := [0, 1]
  rhsNonContracting := [1]
  lhsBatch := []
  rhsBatch := []
  wf := dot_S4x2048x4096_S4096x32_S4x2048x32_2_0_01_1_n_n_wf
def dot_S4x2048x32_S32x4096_S4x2048x4096_2_0_01_1_n_n : DotDims S4x2048x32 S32x4096 S4x2048x4096 where
  lhsContracting := [2]
  rhsContracting := [0]
  lhsNonContracting := [0, 1]
  rhsNonContracting := [1]
  lhsBatch := []
  rhsBatch := []
  wf := dot_S4x2048x32_S32x4096_S4x2048x4096_2_0_01_1_n_n_wf

class Facts : Prop extends Facts₀ where

variable [Facts]
-- ==== Proof.Pieces.lean ====
/-
  What one visit of the kernel body leaves behind, case by case.

  The body is visited once per (row tile, stretch of the shared axis). It keeps two running values across the visits
  of a row tile: the 1024 x 4096 output block and a 1024 x 32 scratch for the low-rank middle factor. Three cases:

    first stretch   both are reset to zero, then the stretch's two partial products are added;
    middle stretch  the stretch's two partial products are added to what the visit before left;
    last stretch    the same, and then the middle factor times B, scaled, is added to the output block.

  Each statement below says that the stores the run of a case found, read back, are the body's named store values
  (the partial-product updates) applied to the visit's input blocks and to the running values it started from.
-/
import proofs.«119216_j1992864825716_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- The zero block the first stretch resets the output block to. -/
abbrev zeroOut : Vec F S1024x4096 .f32 := k0_pay1
/-- The zero block the first stretch resets the scratch to. -/
abbrev zeroMid : Vec F S1024x32 .f32 := k0_pay2

/-! ## A middle stretch -/

/-- The output block after a middle stretch: the dense update of what it held. -/
theorem out_mid (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S256x32 .bf16) (harg4 : arg4.IsWhole) (arg5 : Memref sig .tc .vmem S32x4096 .bf16) (harg5 : arg5.IsWhole) (arg6 : Memref sig .tc .vmem S1024x256 .f32) (harg6 : arg6.IsWhole) (arg7 : Memref sig .tc .vmem S1024x4096 .f32) (harg7 : arg7.IsWhole) (arg8 : Memref sig .tc .vmem S1024x32 .f32) (harg8 : arg8.IsWhole) (hc0 : ¬cond0_0 i) (hc1 : ¬cond0_1 i) (x0 : Vec F S1024x256 .f32) (x1 : Vec F S4096x256 .bf16) (x2 : Vec F S256x32 .bf16) (x3 : Vec F S32x4096 .bf16) (x4 : Vec F S1024x256 .f32) (xo5 : Vec F S1024x4096 .f32) (xs0 : Vec F S1024x32 .f32) :
    out0_B_5 c i arg2 harg2 arg3 harg3 arg4 harg4 arg5 harg5 arg6 harg6 arg7 harg7 arg8 harg8 hc0 hc1 x0 x1 x2 x3 x4 xo5 xs0 = k0_pay4 x0 x1 xo5 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x256) hz, View.ld_unit_zero (S := S4096x256) hz, View.ld_unit_zero (S := S256x32) hz,
    View.ld_unit_zero (S := S32x4096) hz, View.ld_unit_zero (S := S1024x4096) hz, View.ld_unit_zero (S := S1024x32) hz,
    View.readCov_unit_zero (S := S1024x4096) _ hz, View.readCov_unit_zero (S := S1024x32) _ hz]

/-- The scratch after a middle stretch: the low-rank update of what it held. -/
theorem scr_mid (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S256x32 .bf16) (harg4 : arg4.IsWhole) (arg5 : Memref sig .tc .vmem S32x4096 .bf16) (harg5 : arg5.IsWhole) (arg6 : Memref sig .tc .vmem S1024x256 .f32) (harg6 : arg6.IsWhole) (arg7 : Memref sig .tc .vmem S1024x4096 .f32) (harg7 : arg7.IsWhole) (arg8 : Memref sig .tc .vmem S1024x32 .f32) (harg8 : arg8.IsWhole) (hc0 : ¬cond0_0 i) (hc1 : ¬cond0_1 i) (x0 : Vec F S1024x256 .f32) (x1 : Vec F S4096x256 .bf16) (x2 : Vec F S256x32 .bf16) (x3 : Vec F S32x4096 .bf16) (x4 : Vec F S1024x256 .f32) (xo5 : Vec F S1024x4096 .f32) (xs0 : Vec F S1024x32 .f32) :
    sout0_B_0 c i arg2 harg2 arg3 harg3 arg4 harg4 arg5 harg5 arg6 harg6 arg7 harg7 arg8 harg8 hc0 hc1 x0 x1 x2 x3 x4 xo5 xs0 = k0_pay5 x0 x4 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xo5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x256) hz, View.ld_unit_zero (S := S4096x256) hz, View.ld_unit_zero (S := S256x32) hz,
    View.ld_unit_zero (S := S32x4096) hz, View.ld_unit_zero (S := S1024x4096) hz, View.ld_unit_zero (S := S1024x32) hz,
    View.readCov_unit_zero (S := S1024x4096) _ hz, View.readCov_unit_zero (S := S1024x32) _ hz]

/-! ## The first stretch -/

/-- The output block after the first stretch: the dense update of the zero block. -/
theorem out_first (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S256x32 .bf16) (harg4 : arg4.IsWhole) (arg5 : Memref sig .tc .vmem S32x4096 .bf16) (harg5 : arg5.IsWhole) (arg6 : Memref sig .tc .vmem S1024x256 .f32) (harg6 : arg6.IsWhole) (arg7 : Memref sig .tc .vmem S1024x4096 .f32) (harg7 : arg7.IsWhole) (arg8 : Memref sig .tc .vmem S1024x32 .f32) (harg8 : arg8.IsWhole) (hc0 : cond0_0 i) (hc1 : ¬cond0_1 i) (x0 : Vec F S1024x256 .f32) (x1 : Vec F S4096x256 .bf16) (x2 : Vec F S256x32 .bf16) (x3 : Vec F S32x4096 .bf16) (x4 : Vec F S1024x256 .f32) :
    out0_A_5 c i arg2 harg2 arg3 harg3 arg4 harg4 arg5 harg5 arg6 harg6 arg7 harg7 arg8 harg8 hc0 hc1 x0 x1 x2 x3 x4 = k0_pay4 x0 x1 zeroOut := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x4096) hz]
  simp only [View.readAt_eq_ld, harg2.read_unread, harg3.read_unread, harg4.read_unread, harg5.read_unread, harg6.read_unread, harg7.read_unread, harg8.read_unread,
    View.ld_unit_zero (S := S1024x256) hz, View.ld_unit_zero (S := S4096x256) hz, View.ld_unit_zero (S := S256x32) hz,
    View.ld_unit_zero (S := S32x4096) hz, View.ld_unit_zero (S := S1024x4096) hz, View.ld_unit_zero (S := S1024x32) hz,
    View.readCov_unit_zero (S := S1024x4096) _ hz, View.readCov_unit_zero (S := S1024x32) _ hz]

/-- The scratch after the first stretch: the low-rank update of the zero block. -/
theorem scr_first (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S256x32 .bf16) (harg4 : arg4.IsWhole) (arg5 : Memref sig .tc .vmem S32x4096 .bf16) (harg5 : arg5.IsWhole) (arg6 : Memref sig .tc .vmem S1024x256 .f32) (harg6 : arg6.IsWhole) (arg7 : Memref sig .tc .vmem S1024x4096 .f32) (harg7 : arg7.IsWhole) (arg8 : Memref sig .tc .vmem S1024x32 .f32) (harg8 : arg8.IsWhole) (hc0 : cond0_0 i) (hc1 : ¬cond0_1 i) (x0 : Vec F S1024x256 .f32) (x1 : Vec F S4096x256 .bf16) (x2 : Vec F S256x32 .bf16) (x3 : Vec F S32x4096 .bf16) (x4 : Vec F S1024x256 .f32) :
    sout0_A_0 c i arg2 harg2 arg3 harg3 arg4 harg4 arg5 harg5 arg6 harg6 arg7 harg7 arg8 harg8 hc0 hc1 x0 x1 x2 x3 x4 = k0_pay5 x0 x4 x2 zeroMid := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x32) hz]
  simp only [View.readAt_eq_ld, harg2.read_unread, harg3.read_unread, harg4.read_unread, harg5.read_unread, harg6.read_unread, harg7.read_unread, harg8.read_unread,
    View.ld_unit_zero (S := S1024x256) hz, View.ld_unit_zero (S := S4096x256) hz, View.ld_unit_zero (S := S256x32) hz,
    View.ld_unit_zero (S := S32x4096) hz, View.ld_unit_zero (S := S1024x4096) hz, View.ld_unit_zero (S := S1024x32) hz,
    View.readCov_unit_zero (S := S1024x4096) _ hz, View.readCov_unit_zero (S := S1024x32) _ hz]

/-! ## The last stretch -/

/-- The output block after the last stretch: the dense update of what it held, plus the scaled product of the
    updated middle factor with B. -/
theorem out_last (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S256x32 .bf16) (harg4 : arg4.IsWhole) (arg5 : Memref sig .tc .vmem S32x4096 .bf16) (harg5 : arg5.IsWhole) (arg6 : Memref sig .tc .vmem S1024x256 .f32) (harg6 : arg6.IsWhole) (arg7 : Memref sig .tc .vmem S1024x4096 .f32) (harg7 : arg7.IsWhole) (arg8 : Memref sig .tc .vmem S1024x32 .f32) (harg8 : arg8.IsWhole) (hc0 : ¬cond0_0 i) (hc1 : cond0_1 i) (x0 : Vec F S1024x256 .f32) (x1 : Vec F S4096x256 .bf16) (x2 : Vec F S256x32 .bf16) (x3 : Vec F S32x4096 .bf16) (x4 : Vec F S1024x256 .f32) (xo5 : Vec F S1024x4096 .f32) (xs0 : Vec F S1024x32 .f32) :
    out0_C_5 c i arg2 harg2 arg3 harg3 arg4 harg4 arg5 harg5 arg6 harg6 arg7 harg7 arg8 harg8 hc0 hc1 x0 x1 x2 x3 x4 xo5 xs0 = k0_pay6 x3 (k0_pay5 x0 x4 x2 xs0) (k0_pay4 x0 x1 xo5) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_cons_unit_zero (S := S1024x4096) hz]
  simp only [View.readAt_eq_ld, harg2.read_unread, harg3.read_unread, harg4.read_unread, harg5.read_unread, harg6.read_unread, harg7.read_unread, harg8.read_unread,
    View.ld_unit_zero (S := S1024x256) hz, View.ld_unit_zero (S := S4096x256) hz, View.ld_unit_zero (S := S256x32) hz,
    View.ld_unit_zero (S := S32x4096) hz, View.ld_unit_zero (S := S1024x4096) hz, View.ld_unit_zero (S := S1024x32) hz,
    View.readCov_unit_zero (S := S1024x4096) _ hz, View.readCov_unit_zero (S := S1024x32) _ hz]

/-- The scratch after the last stretch: the low-rank update of what it held. -/
theorem scr_last (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S256x32 .bf16) (harg4 : arg4.IsWhole) (arg5 : Memref sig .tc .vmem S32x4096 .bf16) (harg5 : arg5.IsWhole) (arg6 : Memref sig .tc .vmem S1024x256 .f32) (harg6 : arg6.IsWhole) (arg7 : Memref sig .tc .vmem S1024x4096 .f32) (harg7 : arg7.IsWhole) (arg8 : Memref sig .tc .vmem S1024x32 .f32) (harg8 : arg8.IsWhole) (hc0 : ¬cond0_0 i) (hc1 : cond0_1 i) (x0 : Vec F S1024x256 .f32) (x1 : Vec F S4096x256 .bf16) (x2 : Vec F S256x32 .bf16) (x3 : Vec F S32x4096 .bf16) (x4 : Vec F S1024x256 .f32) (xo5 : Vec F S1024x4096 .f32) (xs0 : Vec F S1024x32 .f32) :
    sout0_C_0 c i arg2 harg2 arg3 harg3 arg4 harg4 arg5 harg5 arg6 harg6 arg7 harg7 arg8 harg8 hc0 hc1 x0 x1 x2 x3 x4 xo5 xs0 = k0_pay5 x0 x4 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S1024x256) hz, View.ld_unit_zero (S := S4096x256) hz, View.ld_unit_zero (S := S256x32) hz,
    View.ld_unit_zero (S := S32x4096) hz, View.ld_unit_zero (S := S1024x4096) hz, View.ld_unit_zero (S := S1024x32) hz,
    View.readCov_unit_zero (S := S1024x4096) _ hz, View.readCov_unit_zero (S := S1024x32) _ hz]

end Cert.KernelIdeal.Pieces

end
-- ==== Proof.LoraSpec.lean ====
/-
  The mathematics of a linear layer with a low-rank correction, over the extended reals.

  For a row r of the flattened input X (8192 rows of 4096), the dropout mask D of the same shape, the weight W
  (4096 x 4096, one row per output feature), and the low-rank factors A (4096 x 32) and B (32 x 4096), entry (r, q) of
  the result is

      sum over l of X(r, l) * W(q, l)  +  1 * sum over s of (sum over l of (X(r, l) * D(r, l)) * A(l, s)) * B(s, q).

  A blocked evaluation walks the shared axis l in 16 stretches of 256 and keeps two running sums, one for the dense
  product and one for the rank-32 middle factor; each is "the first K terms" of its sum with K a multiple of 256. The
  only law used is that a sum over the first K + 256 naturals is the sum over the first K plus the next 256 terms, so
  nothing here needs the summands to be finite.
-/
import Idealize.ShloMosaic.PureOps.Ideal
import Idealize.ShloMosaic.PureOps.Ideal.Laws
import Idealize.ShloMosaic.Lib.ValueIdx

noncomputable section

open scoped BigOperators

namespace Cert.LoraSpec

open Idealize.ShloMosaic Idealize.ShloMosaic.ValueIdx

/-- The scale alpha / rank = 32 / 32, as the single-precision word for 1.0 read over the extended reals. Both
    programs multiply the low-rank term by this same word, so it is never evaluated. -/
abbrev scale : EReal := Ideal.ofBits .f32 0x3F800000#32

/-- A matrix read at natural-number coordinates: its entry inside the matrix, zero outside. Partial sums over an
    initial stretch of the shared axis are stated with it, so that their bounds are plain naturals. -/
def at2 {R C : ℕ} (f : (⟨2, ![R, C]⟩ : Shape).Idx → EReal) (r c : ℕ) : EReal :=
  if h : r < R ∧ c < C then f (ix2 ⟨r, h.1⟩ ⟨c, h.2⟩) else 0

/-- Inside the matrix it is the entry. -/
theorem at2_val {R C : ℕ} (f : (⟨2, ![R, C]⟩ : Shape).Idx → EReal) (a : Fin R) (b : Fin C) :
    at2 f a.val b.val = f (ix2 a b) := by
  unfold at2
  rw [dif_pos ⟨a.isLt, b.isLt⟩]

/-- The same with the coordinates given as naturals known to be in range. -/
theorem at2_of_lt {R C : ℕ} (f : (⟨2, ![R, C]⟩ : Shape).Idx → EReal) (r c : ℕ) (hr : r < R) (hc : c < C) :
    at2 f r c = f (ix2 ⟨r, hr⟩ ⟨c, hc⟩) := at2_val f ⟨r, hr⟩ ⟨c, hc⟩

/-- The dense product's first K terms at entry (r, q): X's row r against W's row q. -/
def densePart (X : (⟨2, ![8192, 4096]⟩ : Shape).Idx → EReal) (W : (⟨2, ![4096, 4096]⟩ : Shape).Idx → EReal)
    (r q K : ℕ) : EReal :=
  ∑ l ∈ Finset.range K, at2 X r l * at2 W q l

/-- The rank-32 middle factor's first K terms at entry (r, s): the masked row r of X against A's column s. -/
def midPart (X D : (⟨2, ![8192, 4096]⟩ : Shape).Idx → EReal) (A : (⟨2, ![4096, 32]⟩ : Shape).Idx → EReal)
    (r s K : ℕ) : EReal :=
  ∑ l ∈ Finset.range K, (at2 X r l * at2 D r l) * at2 A l s

/-- The first 256 (k + 1) terms of a sum are the first 256 k followed by the next stretch of 256. -/
theorem sum_next_stretch (g : ℕ → EReal) (k : ℕ) :
    (∑ l ∈ Finset.range (256 * k), g l) + ∑ j : Fin 256, g (256 * k + j.val)
      = ∑ l ∈ Finset.range (256 * (k + 1)), g l := by
  rw [Fin.sum_univ_eq_sum_range (fun j => g (256 * k + j)) 256, Nat.mul_succ, Finset.sum_range_add]

/-- The first stretch alone, started from zero. -/
theorem sum_first_stretch (g : ℕ → EReal) :
    (0 : EReal) + ∑ j : Fin 256, g (256 * 0 + j.val) = ∑ l ∈ Finset.range (256 * (0 + 1)), g l := by
  have h := sum_next_stretch g 0
  rw [Nat.mul_zero, Finset.range_zero, Finset.sum_empty] at h
  exact h

/-- One more stretch of the dense product. -/
theorem densePart_step (X : (⟨2, ![8192, 4096]⟩ : Shape).Idx → EReal) (W : (⟨2, ![4096, 4096]⟩ : Shape).Idx → EReal)
    (r q k : ℕ) :
    densePart X W r q (256 * k) + ∑ j : Fin 256, at2 X r (256 * k + j.val) * at2 W q (256 * k + j.val)
      = densePart X W r q (256 * (k + 1)) :=
  sum_next_stretch (fun l => at2 X r l * at2 W q l) k

/-- The dense product's first stretch, started from zero. -/
theorem densePart_first (X : (⟨2, ![8192, 4096]⟩ : Shape).Idx → EReal) (W : (⟨2, ![4096, 4096]⟩ : Shape).Idx → EReal)
    (r q : ℕ) :
    (0 : EReal) + ∑ j : Fin 256, at2 X r (256 * 0 + j.val) * at2 W q (256 * 0 + j.val)
      = densePart X W r q (256 * (0 + 1)) :=
  sum_first_stretch (fun l => at2 X r l * at2 W q l)

/-- One more stretch of the middle factor. -/
theorem midPart_step (X D : (⟨2, ![8192, 4096]⟩ : Shape).Idx → EReal) (A : (⟨2, ![4096, 32]⟩ : Shape).Idx → EReal)
    (r s k : ℕ) :
    midPart X D A r s (256 * k)
        + ∑ j : Fin 256, (at2 X r (256 * k + j.val) * at2 D r (256 * k + j.val)) * at2 A (256 * k + j.val) s
      = midPart X D A r s (256 * (k + 1)) :=
  sum_next_stretch (fun l => (at2 X r l * at2 D r l) * at2 A l s) k

/-- The middle factor's first stretch, started from zero. -/
theorem midPart_first (X D : (⟨2, ![8192, 4096]⟩ : Shape).Idx → EReal) (A : (⟨2, ![4096, 32]⟩ : Shape).Idx → EReal)
    (r s : ℕ) :
    (0 : EReal) + ∑ j : Fin 256, (at2 X r (256 * 0 + j.val) * at2 D r (256 * 0 + j.val)) * at2 A (256 * 0 + j.val) s
      = midPart X D A r s (256 * (0 + 1)) :=
  sum_first_stretch (fun l => (at2 X r l * at2 D r l) * at2 A l s)

/-- All 4096 terms of the dense product, as a sum over the shared axis's own index type. -/
theorem densePart_full (X : (⟨2, ![8192, 4096]⟩ : Shape).Idx → EReal) (W : (⟨2, ![4096, 4096]⟩ : Shape).Idx → EReal)
    (r : Fin 8192) (q : Fin 4096) :
    densePart X W r.val q.val 4096 = ∑ l : Fin 4096, X (ix2 r l) * W (ix2 q l) := by
  unfold densePart
  rw [← Fin.sum_univ_eq_sum_range (fun l => at2 X r.val l * at2 W q.val l) 4096]
  exact Finset.sum_congr rfl fun l _ => by rw [at2_val, at2_val]

/-- All 4096 terms of the middle factor. -/
theorem midPart_full (X D : (⟨2, ![8192, 4096]⟩ : Shape).Idx → EReal) (A : (⟨2, ![4096, 32]⟩ : Shape).Idx → EReal)
    (r : Fin 8192) (s : Fin 32) :
    midPart X D A r.val s.val 4096 = ∑ l : Fin 4096, (X (ix2 r l) * D (ix2 r l)) * A (ix2 l s) := by
  unfold midPart
  rw [← Fin.sum_univ_eq_sum_range (fun l => (at2 X r.val l * at2 D r.val l) * at2 A l s.val) 4096]
  exact Finset.sum_congr rfl fun l _ => by rw [at2_val, at2_val, at2_val]

/-- The layer on the flattened rows: entry (r, q) of the 8192 x 4096 result. -/
def layer2 (X D : (⟨2, ![8192, 4096]⟩ : Shape).Idx → EReal) (W : (⟨2, ![4096, 4096]⟩ : Shape).Idx → EReal)
    (A : (⟨2, ![4096, 32]⟩ : Shape).Idx → EReal) (B : (⟨2, ![32, 4096]⟩ : Shape).Idx → EReal) :
    (⟨2, ![8192, 4096]⟩ : Shape).Idx → EReal := fun i =>
  (∑ l : Fin 4096, X (ix2 (i 0) l) * W (ix2 (i 1) l))
    + scale * ∑ s : Fin 32, (∑ l : Fin 4096, (X (ix2 (i 0) l) * D (ix2 (i 0) l)) * A (ix2 l s)) * B (ix2 s (i 1))

/-- The layer on the batched input: entry (b, t, q) of the 4 x 2048 x 4096 result. -/
def layer3 (x d : (⟨3, ![4, 2048, 4096]⟩ : Shape).Idx → EReal) (W : (⟨2, ![4096, 4096]⟩ : Shape).Idx → EReal)
    (A : (⟨2, ![4096, 32]⟩ : Shape).Idx → EReal) (B : (⟨2, ![32, 4096]⟩ : Shape).Idx → EReal) :
    (⟨3, ![4, 2048, 4096]⟩ : Shape).Idx → EReal := fun i =>
  (∑ l : Fin 4096, x (ix3 (i 0) (i 1) l) * W (ix2 (i 2) l))
    + scale * ∑ s : Fin 32,
        (∑ l : Fin 4096, (x (ix3 (i 0) (i 1) l) * d (ix3 (i 0) (i 1) l)) * A (ix2 l s)) * B (ix2 s (i 2))

/-- Flattening the batch: where the flattened input and mask at row 2048 b + s are the batched ones at (b, s), the
    flattened layer at that row is the batched layer at (b, s). -/
theorem layer2_flat (x d : (⟨3, ![4, 2048, 4096]⟩ : Shape).Idx → EReal) (X D : (⟨2, ![8192, 4096]⟩ : Shape).Idx → EReal)
    (W : (⟨2, ![4096, 4096]⟩ : Shape).Idx → EReal) (A : (⟨2, ![4096, 32]⟩ : Shape).Idx → EReal)
    (B : (⟨2, ![32, 4096]⟩ : Shape).Idx → EReal)
    (hX : ∀ (b : Fin 4) (s : Fin 2048) (h : 2048 * b.val + s.val < 8192) (l : Fin 4096),
      X (ix2 ⟨2048 * b.val + s.val, h⟩ l) = x (ix3 b s l))
    (hD : ∀ (b : Fin 4) (s : Fin 2048) (h : 2048 * b.val + s.val < 8192) (l : Fin 4096),
      D (ix2 ⟨2048 * b.val + s.val, h⟩ l) = d (ix3 b s l))
    (b : Fin 4) (s : Fin 2048) (h : 2048 * b.val + s.val < 8192) (q : Fin 4096) :
    layer2 X D W A B (ix2 ⟨2048 * b.val + s.val, h⟩ q) = layer3 x d W A B (ix3 b s q) := by
  show (∑ l : Fin 4096, X (ix2 ⟨2048 * b.val + s.val, h⟩ l) * W (ix2 q l))
      + scale * ∑ t : Fin 32,
          (∑ l : Fin 4096, (X (ix2 ⟨2048 * b.val + s.val, h⟩ l) * D (ix2 ⟨2048 * b.val + s.val, h⟩ l)) * A (ix2 l t)) * B (ix2 t q)
    = (∑ l : Fin 4096, x (ix3 b s l) * W (ix2 q l))
      + scale * ∑ t : Fin 32, (∑ l : Fin 4096, (x (ix3 b s l) * d (ix3 b s l)) * A (ix2 l t)) * B (ix2 t q)
  simp only [hX, hD]

end Cert.LoraSpec

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.Payloads.lean ====
/-
  The body's three updates, entry by entry, over the extended reals.

  With the 1024 x 256 blocks xb (of the input) and db (of the mask), the 4096 x 256 block wb (of W), the 256 x 32
  block ab (of A) and the whole 32 x 4096 factor bb (B):

    dense update     o(p, q) + sum over j of xb(p, j) * wb(q, j)
    low-rank update  s(p, t) + sum over j of (xb(p, j) * db(p, j)) * ab(j, t)
    closing update   o(p, q) + scale * sum over t of s(p, t) * bb(t, q)

  Changes of float format are the identity on extended reals, and a matrix product into a zero accumulator is the
  plain sum of products.
-/
import proofs.«119216_j1992864825716_1_alg».proof.Proof.Gen.KernelIdeal.Skeleton
import proofs.«119216_j1992864825716_1_alg».proof.Proof.LoraSpec
import proofs.«119216_j1992864825716_1_alg».proof.Proof.LibDot
import proofs.«119216_j1992864825716_1_alg».proof.Proof.LibDotT
import Idealize.ShloMosaic.Lib.Pipeline.Value

noncomputable section

open scoped BigOperators
open Idealize.ShloMosaic Idealize.ShloMosaic.TcCoe Idealize.SL.Sem Idealize.ShloMosaic.ValueIdx

namespace Cert.KernelIdeal.Payloads

open Cert.KernelIdeal Cert.KernelIdeal.Gen Cert.LoraSpec

/-- The output block's reset value is zero everywhere. -/
theorem zeroOut_apply (i : S1024x4096.Idx) : (k0_pay1 (F := Ideal)) i = 0 := by
  show Ideal.ofBits .f32 0x00000000#32 = 0
  exact Ideal.ofBits_zero_f32

/-- The scratch's reset value is zero everywhere. -/
theorem zeroMid_apply (i : S1024x32.Idx) : (k0_pay2 (F := Ideal)) i = 0 := by
  unfold k0_pay2
  simp only [shapeCast_self]
  show Ideal.ofBits .f32 0x00000000#32 = 0
  exact Ideal.ofBits_zero_f32

/-- The dense update at entry (p, q). -/
theorem dense_update (xb : Vec Ideal S1024x256 .f32) (wb : Vec Ideal S4096x256 .bf16) (o : Vec Ideal S1024x4096 .f32)
    (p : Fin 1024) (q : Fin 4096) :
    k0_pay4 xb wb o (ix2 p q) = o (ix2 p q) + ∑ j : Fin 256, xb (ix2 p j) * wb (ix2 q j) := by
  unfold k0_pay4 k0_pay3
  simp only [shapeCast_self]
  refine (congrArg (o (ix2 p q) + ·) (Cert.LibDotT.matmul_zero_at_T dot_S1024x256_S4096x256_S1024x4096_1_1_0_0_n_n
    rfl rfl rfl rfl rfl rfl none _ _ p q)).trans ?_
  rfl

/-- The low-rank update at entry (p, t). -/
theorem lowrank_update (xb db : Vec Ideal S1024x256 .f32) (ab : Vec Ideal S256x32 .bf16) (s : Vec Ideal S1024x32 .f32)
    (p : Fin 1024) (t : Fin 32) :
    k0_pay5 xb db ab s (ix2 p t) = s (ix2 p t) + ∑ j : Fin 256, (xb (ix2 p j) * db (ix2 p j)) * ab (ix2 j t) := by
  unfold k0_pay5 k0_pay3
  simp only [shapeCast_self]
  refine (congrArg (s (ix2 p t) + ·) (Cert.LibDot.matmul_zero_at dot_S1024x256_S256x32_S1024x32_1_0_0_1_n_n
    rfl rfl rfl rfl rfl rfl none _ _ p t)).trans ?_
  rfl

/-- The closing update at entry (p, q). -/
theorem closing_update (bb : Vec Ideal S32x4096 .bf16) (s : Vec Ideal S1024x32 .f32) (o : Vec Ideal S1024x4096 .f32)
    (p : Fin 1024) (q : Fin 4096) :
    k0_pay6 bb s o (ix2 p q) = o (ix2 p q) + scale * ∑ t : Fin 32, s (ix2 p t) * bb (ix2 t q) := by
  unfold k0_pay6
  simp only [shapeCast_self]
  refine (congrArg (fun z => o (ix2 p q) + scale * z) (Cert.LibDot.matmul_zero_at dot_S1024x32_S32x4096_S1024x4096_1_0_0_1_n_n
    rfl rfl rfl rfl rfl rfl none _ _ p q)).trans ?_
  rfl

end Cert.KernelIdeal.Payloads

end
-- ==== Proof.Blocks.lean ====
/-
  What the kernel's windows read.

  Before the call the host flattens the input and the mask to 8192 x 4096 and changes the format of W, A and B (the
  identity on extended reals). At the visit numbered t (row tile t / 16, stretch t mod 16 of the shared axis):

    the input's and the mask's blocks are rows 1024 (t / 16) + p, columns 256 (t mod 16) + j of the flattened arrays;
    W's block is all 4096 rows, columns 256 (t mod 16) + j;
    A's block is rows 256 (t mod 16) + j, all 32 columns;
    B's block is all of B.

  The flattened input at row 2048 b + s is the input at (b, s).
-/
import proofs.«119216_j1992864825716_1_alg».proof.Proof.Gen.KernelIdeal.Frame
import proofs.«119216_j1992864825716_1_alg».proof.Proof.LoraSpec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.LoraSpec

variable (m : (ℓ : Loc nD τ sig) → Buf (Elt Ideal) ℓ)

/-! ## The arrays the call finds, and the blocks of a visit, by their literal types -/

/-- The flattened input. -/
abbrev flatX (c : Dev nD) : S8192x4096.Idx → EReal := V m c main_v0
/-- The flattened mask. -/
abbrev flatD (c : Dev nD) : S8192x4096.Idx → EReal := V m c main_v1
/-- W after its format change. -/
abbrev narrowW (c : Dev nD) : S4096x4096.Idx → EReal := V m c main_v2
/-- A after its format change. -/
abbrev narrowA (c : Dev nD) : S4096x32.Idx → EReal := V m c main_v3
/-- B after its format change. -/
abbrev narrowB (c : Dev nD) : S32x4096.Idx → EReal := V m c main_v4

/-- The input's block at a visit. -/
abbrev xblk (c : Dev nD) (t : Fin cfg0.N) : Vec Ideal S1024x256 .f32 := iblk m c 0 t
/-- W's block at a visit. -/
abbrev wblk (c : Dev nD) (t : Fin cfg0.N) : Vec Ideal S4096x256 .bf16 := iblk m c 1 t
/-- A's block at a visit. -/
abbrev ablk (c : Dev nD) (t : Fin cfg0.N) : Vec Ideal S256x32 .bf16 := iblk m c 2 t
/-- B's block at a visit. -/
abbrev bblk (c : Dev nD) (t : Fin cfg0.N) : Vec Ideal S32x4096 .bf16 := iblk m c 3 t
/-- The mask's block at a visit. -/
abbrev dblk (c : Dev nD) (t : Fin cfg0.N) : Vec Ideal S1024x256 .f32 := iblk m c 4 t

/-! ## Which block each window is on at visit t -/

theorem index_x : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
theorem index_w : ∀ t : Fin cfg0.N, win0_1.index t 0 = 0 ∧ win0_1.index t 1 = t.val % 16 :=
  (by decide +kernel : ∀ t : Fin grid0.N, win0_1.index t 0 = 0 ∧ win0_1.index t 1 = t.val % 16)
theorem index_a : ∀ t : Fin cfg0.N, win0_2.index t 0 = t.val % 16 ∧ win0_2.index t 1 = 0 :=
  (by decide +kernel : ∀ t : Fin grid0.N, win0_2.index t 0 = t.val % 16 ∧ win0_2.index t 1 = 0)
theorem index_b : ∀ t : Fin cfg0.N, win0_3.index t 0 = 0 ∧ win0_3.index t 1 = 0 :=
  (by decide +kernel : ∀ t : Fin grid0.N, win0_3.index t 0 = 0 ∧ win0_3.index t 1 = 0)
theorem index_d : ∀ t : Fin cfg0.N, win0_4.index t 0 = t.val / 16 ∧ win0_4.index t 1 = t.val % 16 :=
  (by decide +kernel : ∀ t : Fin grid0.N, win0_4.index t 0 = t.val / 16 ∧ win0_4.index t 1 = t.val % 16)
theorem index_o : ∀ t : Fin cfg0.N, win0_5.index t 0 = t.val / 16 ∧ win0_5.index t 1 = 0 :=
  (by decide +kernel : ∀ t : Fin grid0.N, win0_5.index t 0 = t.val / 16 ∧ win0_5.index t 1 = 0)

/-! ## The blocks read at an entry -/

theorem xblk_apply (c : Dev nD) (t : Fin cfg0.N) (p : Fin 1024) (j : Fin 256) :
    xblk m c t (ix2 p j) = at2 (flatX m c) (1024 * (t.val / 16) + p.val) (256 * (t.val % 16) + j.val) := by
  have hN : t.val < 128 := lt_of_lt_of_eq t.isLt (show cfg0.N = 128 from N_0)
  rw [at2_of_lt _ _ _ (by omega) (by omega)]
  show iblk m c 0 t (ix2 p j) = _
  unfold iblk
  rw [View.read_apply]
  show V m c main_v0 _ = V m c main_v0 _
  congr 1
  funext a
  apply Fin.ext
  match a with
  | ⟨0, _⟩ => show win0_0.index t 0 * 1024 + 1 * p.val = 1024 * (t.val / 16) + p.val; rw [(index_x t).1]; omega
  | ⟨1, _⟩ => show win0_0.index t 1 * 256 + 1 * j.val = 256 * (t.val % 16) + j.val; rw [(index_x t).2]; omega

theorem dblk_apply (c : Dev nD) (t : Fin cfg0.N) (p : Fin 1024) (j : Fin 256) :
    dblk m c t (ix2 p j) = at2 (flatD m c) (1024 * (t.val / 16) + p.val) (256 * (t.val % 16) + j.val) := by
  have hN : t.val < 128 := lt_of_lt_of_eq t.isLt (show cfg0.N = 128 from N_0)
  rw [at2_of_lt _ _ _ (by omega) (by omega)]
  show iblk m c 4 t (ix2 p j) = _
  unfold iblk
  rw [View.read_apply]
  show V m c main_v1 _ = V m c main_v1 _
  congr 1
  funext a
  apply Fin.ext
  match a with
  | ⟨0, _⟩ => show win0_4.index t 0 * 1024 + 1 * p.val = 1024 * (t.val / 16) + p.val; rw [(index_d t).1]; omega
  | ⟨1, _⟩ => show win0_4.index t 1 * 256 + 1 * j.val = 256 * (t.val % 16) + j.val; rw [(index_d t).2]; omega

theorem wblk_apply (c : Dev nD) (t : Fin cfg0.N) (q : Fin 4096) (j : Fin 256) :
    wblk m c t (ix2 q j) = at2 (narrowW m c) q.val (256 * (t.val % 16) + j.val) := by
  have hN : t.val < 128 := lt_of_lt_of_eq t.isLt (show cfg0.N = 128 from N_0)
  rw [at2_of_lt _ _ _ q.isLt (by omega)]
  show iblk m c 1 t (ix2 q j) = _
  unfold iblk
  rw [View.read_apply]
  show V m c main_v2 _ = V m c main_v2 _
  congr 1
  funext a
  apply Fin.ext
  match a with
  | ⟨0, _⟩ => show win0_1.index t 0 * 4096 + 1 * q.val = q.val; rw [(index_w t).1]; omega
  | ⟨1, _⟩ => show win0_1.index t 1 * 256 + 1 * j.val = 256 * (t.val % 16) + j.val; rw [(index_w t).2]; omega

theorem ablk_apply (c : Dev nD) (t : Fin cfg0.N) (j : Fin 256) (s : Fin 32) :
    ablk m c t (ix2 j s) = at2 (narrowA m c) (256 * (t.val % 16) + j.val) s.val := by
  have hN : t.val < 128 := lt_of_lt_of_eq t.isLt (show cfg0.N = 128 from N_0)
  rw [at2_of_lt _ _ _ (by omega) s.isLt]
  show iblk m c 2 t (ix2 j s) = _
  unfold iblk
  rw [View.read_apply]
  show V m c main_v3 _ = V m c main_v3 _
  congr 1
  funext a
  apply Fin.ext
  match a with
  | ⟨0, _⟩ => show win0_2.index t 0 * 256 + 1 * j.val = 256 * (t.val % 16) + j.val; rw [(index_a t).1]; omega
  | ⟨1, _⟩ => show win0_2.index t 1 * 32 + 1 * s.val = s.val; rw [(index_a t).2]; omega

theorem bblk_apply (c : Dev nD) (t : Fin cfg0.N) (s : Fin 32) (q : Fin 4096) :
    bblk m c t (ix2 s q) = narrowB m c (ix2 s q) := by
  show iblk m c 3 t (ix2 s q) = _
  unfold iblk
  rw [View.read_apply]
  show V m c main_v4 _ = V m c main_v4 _
  congr 1
  funext a
  apply Fin.ext
  match a with
  | ⟨0, _⟩ => show win0_3.index t 0 * 32 + 1 * s.val = s.val; rw [(index_b t).1]; omega
  | ⟨1, _⟩ => show win0_3.index t 1 * 4096 + 1 * q.val = q.val; rw [(index_b t).2]; omega

/-! ## The host operations before the call -/

theorem flatX_eq (c : Dev nD) :
    flatX m c = shapeCast S8192x4096 (m ((c : Thread nD τ).loc main_arg0)) shapeCasts_S4x2048x4096_S8192x4096 := by
  show StableHlo.after hostOps0 (fun b => m (c, b)) (Proc.devRef .tc main_v0) = _
  after_results
  rfl

theorem flatD_eq (c : Dev nD) :
    flatD m c = shapeCast S8192x4096 (m ((c : Thread nD τ).loc main_arg4)) shapeCasts_S4x2048x4096_S8192x4096 := by
  show StableHlo.after hostOps0 (fun b => m (c, b)) (Proc.devRef .tc main_v1) = _
  after_results
  rfl

theorem narrowW_eq (c : Dev nD) : narrowW m c = (m ((c : Thread nD τ).loc main_arg1) : S4096x4096.Idx → EReal) := by
  show StableHlo.after hostOps0 (fun b => m (c, b)) (Proc.devRef .tc main_v2) = _
  after_results
  rfl

theorem narrowA_eq (c : Dev nD) : narrowA m c = (m ((c : Thread nD τ).loc main_arg2) : S4096x32.Idx → EReal) := by
  show StableHlo.after hostOps0 (fun b => m (c, b)) (Proc.devRef .tc main_v3) = _
  after_results
  rfl

theorem narrowB_eq (c : Dev nD) : narrowB m c = (m ((c : Thread nD τ).loc main_arg3) : S32x4096.Idx → EReal) := by
  show StableHlo.after hostOps0 (fun b => m (c, b)) (Proc.devRef .tc main_v4) = _
  after_results
  rfl

/-- The flattening read at row 2048 b + s: the batched array at (b, s). -/
theorem flatten_apply (x : S4x2048x4096.Idx → EReal) (b : Fin 4) (s : Fin 2048) (l : Fin 4096) :
    shapeCast S8192x4096 x shapeCasts_S4x2048x4096_S8192x4096
        (ix2 ⟨2048 * b.val + s.val, by have := b.isLt; have := s.isLt; omega⟩ l) = x (ix3 b s l) := by
  refine shapeCast_apply x _ _ (ix3 b s l) ?_
  rw [Shape.rowMajor_val_three, Shape.rowMajor_val_two]
  show (b.val * 2048 + s.val) * 4096 + l.val = (2048 * b.val + s.val) * 4096 + l.val
  omega

end Cert.KernelIdeal.Blocks

end
-- ==== Proof.Running.lean ====
/-
  The two running values after each visit, as partial sums.

  Visit t works on row tile t / 16 and on stretch t mod 16 of the shared axis. By induction on t:

    the scratch holds, at (p, s), the middle factor's first 256 (t mod 16 + 1) terms for row 1024 (t / 16) + p;
    until the last stretch the output block holds, at (p, q), the dense product's first 256 (t mod 16 + 1) terms;
    after the last stretch it holds all 4096 terms of the dense product plus the scaled product of the complete
    middle factor with B: the layer's entry.

  A first stretch starts both from zero; every other stretch adds its 256 terms to what the visit before left, on the
  same row tile.
-/
import proofs.«119216_j1992864825716_1_alg».proof.Proof.Pieces
import proofs.«119216_j1992864825716_1_alg».proof.Proof.Payloads
import proofs.«119216_j1992864825716_1_alg».proof.Proof.Blocks

noncomputable section

open scoped BigOperators
open Idealize.ShloMosaic Idealize.ShloMosaic.TcCoe Idealize.SL.Sem Idealize.ShloMosaic.ValueIdx

namespace Cert.KernelIdeal.Running

open Cert.KernelIdeal Cert.KernelIdeal.Gen Cert.LoraSpec Cert.KernelIdeal.Blocks Cert.KernelIdeal.Pieces
  Cert.KernelIdeal.Payloads

variable (m : (ℓ : Loc nD τ sig) → Buf (Elt Ideal) ℓ)

/-! ## Each visit's result over the visit before, as the body's updates -/

/-- What the two running values held when visit t began (for a visit that is not the first of its row tile). -/
abbrev before (c : Dev nD) (t : Fin cfg0.N) : Vec Ideal S1024x4096 .f32 × Vec Ideal S1024x32 .f32 :=
  (outsAt0 m c (t.val - 1) (Nat.lt_of_le_of_lt (Nat.sub_le _ _) t.isLt))

theorem scr_at_first (c : Dev nD) (t : Fin cfg0.N) (h0 : t.val % 16 = 0) (h1 : ¬t.val % 16 = 15) :
    (outsAt0 m c t.val t.isLt).2 = k0_pay5 (xblk m c t) (dblk m c t) (ablk m c t) zeroMid := by
  rw [outsAt0_A m c t h0 h1]
  dsimp only
  exact scr_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

theorem out_at_first (c : Dev nD) (t : Fin cfg0.N) (h0 : t.val % 16 = 0) (h1 : ¬t.val % 16 = 15) :
    (outsAt0 m c t.val t.isLt).1 = k0_pay4 (xblk m c t) (wblk m c t) zeroOut := by
  rw [outsAt0_A m c t h0 h1]
  dsimp only
  exact out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

theorem scr_at_mid (c : Dev nD) (t : Fin cfg0.N) (h0 : ¬t.val % 16 = 0) (h1 : ¬t.val % 16 = 15) :
    (outsAt0 m c t.val t.isLt).2 = k0_pay5 (xblk m c t) (dblk m c t) (ablk m c t) (before m c t).2 := by
  rw [outsAt0_B m c t h0 h1]
  dsimp only
  exact scr_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2

theorem out_at_mid (c : Dev nD) (t : Fin cfg0.N) (h0 : ¬t.val % 16 = 0) (h1 : ¬t.val % 16 = 15) :
    (outsAt0 m c t.val t.isLt).1 = k0_pay4 (xblk m c t) (wblk m c t) (before m c t).1 := by
  rw [outsAt0_B m c t h0 h1]
  dsimp only
  exact out_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2

theorem scr_at_last (c : Dev nD) (t : Fin cfg0.N) (h0 : ¬t.val % 16 = 0) (h1 : t.val % 16 = 15) :
    (outsAt0 m c t.val t.isLt).2 = k0_pay5 (xblk m c t) (dblk m c t) (ablk m c t) (before m c t).2 := by
  rw [outsAt0_C m c t h0 h1]
  dsimp only
  exact scr_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2

theorem out_at_last (c : Dev nD) (t : Fin cfg0.N) (h0 : ¬t.val % 16 = 0) (h1 : t.val % 16 = 15) :
    (outsAt0 m c t.val t.isLt).1
      = k0_pay6 (bblk m c t) (k0_pay5 (xblk m c t) (dblk m c t) (ablk m c t) (before m c t).2)
          (k0_pay4 (xblk m c t) (wblk m c t) (before m c t).1) := by
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2

/-! ## The scratch: the middle factor's partial sums -/

/-- The middle factor's first K terms for the row tile's row p. -/
abbrev midSum (c : Dev nD) (n : ℕ) (p : Fin 1024) (s : Fin 32) (K : ℕ) : EReal :=
  midPart (flatX m c) (flatD m c) (narrowA m c) (1024 * (n / 16) + p.val) s.val K

/-- The dense product's first K terms for the row tile's row p. -/
abbrev denseSum (c : Dev nD) (n : ℕ) (p : Fin 1024) (q : Fin 4096) (K : ℕ) : EReal :=
  densePart (flatX m c) (narrowW m c) (1024 * (n / 16) + p.val) q.val K

theorem mid_first (c : Dev nD) (t : Fin cfg0.N) (h0 : t.val % 16 = 0) (p : Fin 1024) (s : Fin 32) :
    (outsAt0 m c t.val t.isLt).2 (ix2 p s) = midSum m c t.val p s (256 * (t.val % 16 + 1)) := by
  rw [scr_at_first m c t h0 (by omega), lowrank_update]
  simp only [zeroMid, zeroMid_apply, midSum, xblk_apply, dblk_apply, ablk_apply]
  rw [h0]
  exact midPart_first _ _ _ _ _

theorem mid_next (c : Dev nD) (t : Fin cfg0.N) (h0 : ¬t.val % 16 = 0)
    (ih : ∀ (p : Fin 1024) (s : Fin 32), (before m c t).2 (ix2 p s) = midSum m c (t.val - 1) p s (256 * ((t.val - 1) % 16 + 1)))
    (p : Fin 1024) (s : Fin 32) :
    (outsAt0 m c t.val t.isLt).2 (ix2 p s) = midSum m c t.val p s (256 * (t.val % 16 + 1)) := by
  have e1 : (t.val - 1) / 16 = t.val / 16 := by omega
  have e2 : (t.val - 1) % 16 + 1 = t.val % 16 := by omega
  have hstep : (before m c t).2 (ix2 p s)
      + ∑ j : Fin 256, (xblk m c t (ix2 p j) * dblk m c t (ix2 p j)) * ablk m c t (ix2 j s)
      = midSum m c t.val p s (256 * (t.val % 16 + 1)) := by
    rw [ih p s]
    simp only [midSum, xblk_apply, dblk_apply, ablk_apply]
    rw [e1, e2]
    exact midPart_step _ _ _ _ _ _
  by_cases h1 : t.val % 16 = 15
  · rw [scr_at_last m c t h0 h1, lowrank_update]; exact hstep
  · rw [scr_at_mid m c t h0 h1, lowrank_update]; exact hstep

/-- After visit n the scratch holds the middle factor's first 256 (n mod 16 + 1) terms. -/
theorem mid_running (c : Dev nD) : ∀ (n : ℕ) (h : n < cfg0.N) (p : Fin 1024) (s : Fin 32),
    (outsAt0 m c n h).2 (ix2 p s) = midSum m c n p s (256 * (n % 16 + 1)) := by
  intro n
  induction n with
  | zero => intro h p s; exact mid_first m c ⟨0, h⟩ rfl p s
  | succ n ih =>
    intro h p s
    by_cases h0 : (n + 1) % 16 = 0
    · exact mid_first m c ⟨n + 1, h⟩ h0 p s
    · exact mid_next m c ⟨n + 1, h⟩ h0 (ih (Nat.lt_of_succ_lt h)) p s

/-! ## The output block: the dense product's partial sums, then the layer's entry -/

theorem dense_first (c : Dev nD) (t : Fin cfg0.N) (h0 : t.val % 16 = 0) (p : Fin 1024) (q : Fin 4096) :
    (outsAt0 m c t.val t.isLt).1 (ix2 p q) = denseSum m c t.val p q (256 * (t.val % 16 + 1)) := by
  rw [out_at_first m c t h0 (by omega), dense_update]
  simp only [zeroOut, zeroOut_apply, denseSum, xblk_apply, wblk_apply]
  rw [h0]
  exact densePart_first _ _ _ _

/-- One more stretch of the dense product over what the visit before left. -/
theorem dense_step (c : Dev nD) (t : Fin cfg0.N) (h0 : ¬t.val % 16 = 0)
    (ih : ∀ (p : Fin 1024) (q : Fin 4096), (before m c t).1 (ix2 p q) = denseSum m c (t.val - 1) p q (256 * ((t.val - 1) % 16 + 1)))
    (p : Fin 1024) (q : Fin 4096) :
    k0_pay4 (xblk m c t) (wblk m c t) (before m c t).1 (ix2 p q) = denseSum m c t.val p q (256 * (t.val % 16 + 1)) := by
  have e1 : (t.val - 1) / 16 = t.val / 16 := by omega
  have e2 : (t.val - 1) % 16 + 1 = t.val % 16 := by omega
  rw [dense_update, ih p q]
  simp only [denseSum, xblk_apply, wblk_apply]
  rw [e1, e2]
  exact densePart_step _ _ _ _ _

/-- Until the last stretch the output block holds the dense product's first 256 (n mod 16 + 1) terms. -/
theorem dense_running (c : Dev nD) : ∀ (n : ℕ) (h : n < cfg0.N), ¬n % 16 = 15 → ∀ (p : Fin 1024) (q : Fin 4096),
    (outsAt0 m c n h).1 (ix2 p q) = denseSum m c n p q (256 * (n % 16 + 1)) := by
  intro n
  induction n with
  | zero => intro h _ p q; exact dense_first m c ⟨0, h⟩ rfl p q
  | succ n ih =>
    intro h h1 p q
    by_cases h0 : (n + 1) % 16 = 0
    · exact dense_first m c ⟨n + 1, h⟩ h0 p q
    · rw [show outsAt0 m c (n + 1) h = outsAt0 m c (⟨n + 1, h⟩ : Fin cfg0.N).val (⟨n + 1, h⟩ : Fin cfg0.N).isLt from rfl,
        out_at_mid m c ⟨n + 1, h⟩ h0 h1]
      exact dense_step m c ⟨n + 1, h⟩ h0 (ih (Nat.lt_of_succ_lt h) (by omega)) p q

/-- After the last stretch of a row tile the output block holds the layer's entries for the tile's rows. -/
theorem block_done (c : Dev nD) (t : Fin cfg0.N) (h1 : t.val % 16 = 15) (p : Fin 1024) (q : Fin 4096) :
    (outsAt0 m c t.val t.isLt).1 (ix2 p q)
      = denseSum m c t.val p q 4096 + scale * ∑ s : Fin 32, midSum m c t.val p s 4096 * narrowB m c (ix2 s q) := by
  have h0 : ¬t.val % 16 = 0 := by omega
  have hN : t.val < 128 := lt_of_lt_of_eq t.isLt (show cfg0.N = 128 from N_0)
  have hmid : ∀ s : Fin 32, k0_pay5 (xblk m c t) (dblk m c t) (ablk m c t) (before m c t).2 (ix2 p s) = midSum m c t.val p s 4096 := by
    intro s
    have h := mid_running m c t.val t.isLt p s
    rw [scr_at_last m c t h0 h1, h1] at h
    exact h
  have hdense : k0_pay4 (xblk m c t) (wblk m c t) (before m c t).1 (ix2 p q) = denseSum m c t.val p q 4096 := by
    have h := dense_step m c t h0 (dense_running m c (t.val - 1) _ (by omega)) p q
    rw [h1] at h
    exact h
  rw [out_at_last m c t h0 h1, closing_update, hdense]
  simp only [hmid, bblk_apply]

end Cert.KernelIdeal.Running

end
-- ==== Proof.Result.lean ====
/-
  The call's result, and the program's.

  Row tile i's output block is written back once, after the tile's last stretch (visit 16 i + 15), and the eight
  blocks tile the 8192 x 4096 array, so the call leaves the layer on the flattened arrays. The host then reshapes
  it to 4 x 2048 x 4096: entry (b, s, q) is the flattened result at row 2048 b + s, which is the layer's entry
  (b, s, q) on the batched input.
-/
import proofs.«119216_j1992864825716_1_alg».proof.Proof.Running

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.LoraSpec Cert.KernelIdeal.Blocks Cert.KernelIdeal.Running

variable (m : (ℓ : Loc nD τ sig) → Buf (Elt Ideal) ℓ) (ρ : Dev nD → PrngReg)

/-- The layer on the flattened arrays the call finds. -/
abbrev flatOut (c : Dev nD) : S8192x4096.Idx → EReal :=
  layer2 (flatX m c) (flatD m c) (narrowW m c) (narrowA m c) (narrowB m c)

/-- A finished output block, entry by entry, is the layer at the block's rows. -/
theorem block_is_layer (c : Dev nD) (t : Fin cfg0.N) (h1 : t.val % 16 = 15) (y : S1024x4096.Idx) :
    (outsAt0 m c t.val t.isLt).1 y
      = flatOut m c (ix2 ⟨1024 * (t.val / 16) + (y 0).val, by
          have hN : t.val < 128 := lt_of_lt_of_eq t.isLt (show cfg0.N = 128 from N_0)
          have hy : (y 0).val < 1024 := (y 0).isLt; show _ < 8192; omega⟩ (y 1)) := by
  have hN : t.val < 128 := lt_of_lt_of_eq t.isLt (show cfg0.N = 128 from N_0)
  obtain ⟨p, q, rfl⟩ : ∃ (p : Fin 1024) (q : Fin 4096), y = ix2 p q := ⟨y 0, y 1, eq_ix2 y⟩
  have hp : p.val < 1024 := p.isLt
  show (outsAt0 m c t.val t.isLt).1 (ix2 p q)
    = (∑ l : Fin 4096, flatX m c (ix2 ⟨1024 * (t.val / 16) + p.val, by omega⟩ l) * narrowW m c (ix2 q l))
      + scale * ∑ s : Fin 32, (∑ l : Fin 4096, (flatX m c (ix2 ⟨1024 * (t.val / 16) + p.val, by omega⟩ l)
          * flatD m c (ix2 ⟨1024 * (t.val / 16) + p.val, by omega⟩ l)) * narrowA m c (ix2 l s)) * narrowB m c (ix2 s q)
  rw [block_done m c t h1 p q, ← densePart_full (flatX m c) (narrowW m c) ⟨1024 * (t.val / 16) + p.val, by omega⟩ q]
  refine congrArg (fun z => _ + scale * z) (Finset.sum_congr rfl fun s _ => ?_)
  rw [← midPart_full (flatX m c) (flatD m c) (narrowA m c) ⟨1024 * (t.val / 16) + p.val, by omega⟩ s]

/-- What a writing visit writes back is its block of the flattened layer. -/
theorem flushed_eq (c : Dev nD) (t : Fin cfg0.N) (hf : (cfg0.win 5).flush t = true) :
    (dats m 0 c).flushed 5 t = ((cfg0.win 5).blk t).view.read (Elt Ideal) (flatOut m c) := by
  have h1 : t.val % 16 = 15 := (flush0_5 t).mp hf
  show (cfg0.win 5).cut (grid0.coords t) ((dats m 0 c).after 5 t) = _
  rw [after0_5]
  funext y
  show (outsAt0 m c t.val t.isLt).1 y = flatOut m c (((cfg0.win 5).blk t).view.emb y)
  rw [block_is_layer m c t h1 y]
  congr 1
  funext a
  apply Fin.ext
  match a with
  | ⟨0, _⟩ => show 1024 * (t.val / 16) + (y 0).val = win0_5.index t 0 * 1024 + 1 * (y 0).val; rw [(index_o t).1]; omega
  | ⟨1, _⟩ => show (y 1).val = win0_5.index t 1 * 4096 + 1 * (y 1).val; rw [(index_o t).2]; omega

/-- An index of the array is in visit t's block iff each coordinate is in the block's range. -/
theorem mem_block (t : Fin cfg0.N) (i : S8192x4096.Idx) :
    i ∈ ((cfg0.win 5).blk t).view.set ↔ ∀ a : Fin 2, win0_5.index t a * S1024x4096.size a ≤ (i a).val ∧ (i a).val < win0_5.index t a * S1024x4096.size a + S1024x4096.size a := by
  show i ∈ ((View.whole main_v5).slice (win0_5.rect t)).set ↔ _
  rw [View.set_slice_whole, Rect.mem_set_unit]
  exact Iff.rfl

/-- Row r is written back by the last visit of row tile r / 1024. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  refine ⟨⟨16 * ((i 0).val / 1024) + 15, by rw [show cfg0.N = 128 from N_0]; omega⟩, (flush0_5 _).mpr (by show (16 * ((i 0).val / 1024) + 15) % 16 = 15; omega), ?_⟩
  rw [mem_block]
  intro a
  match a with
  | ⟨0, _⟩ =>
    show win0_5.index _ 0 * 1024 ≤ (i 0).val ∧ (i 0).val < win0_5.index _ 0 * 1024 + 1024
    rw [(index_o _).1]
    show (16 * ((i 0).val / 1024) + 15) / 16 * 1024 ≤ (i 0).val ∧ (i 0).val < (16 * ((i 0).val / 1024) + 15) / 16 * 1024 + 1024
    omega
  | ⟨1, _⟩ =>
    show win0_5.index _ 1 * 4096 ≤ (i 1).val ∧ (i 1).val < win0_5.index _ 1 * 4096 + 4096
    rw [(index_o _).2]
    omega

/-- The call leaves the flattened layer in its result array. -/
theorem call_result (c : Dev nD) : (dats m 0 c).arrAt 5 cfg0.N = flatOut m c :=
  (dats m 0 c).arrAt_eq_of_cover 5 (flatOut m c) (flushed_eq m c) covered

/-- The program's result: the flattened layer reshaped to 4 x 2048 x 4096. -/
abbrev result (c : Dev nD) : S4x2048x4096.Idx → EReal :=
  shapeCast S4x2048x4096 (flatOut m c) shapeCasts_S8192x4096_S4x2048x4096

/-- The host's reshape after the call reads the call's result array. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = flatOut m c :=
    (Pipeline.withArrays_arr spec0 launch0.win.arr_inj c _ _ 5).trans (call_result m c)
  rw [hw]
  rfl

/-- The flattened layer at row 2048 b + s is the batched layer at (b, s). -/
theorem result_apply (c : Dev nD) (b : Fin 4) (s : Fin 2048) (q : Fin 4096) :
    result m c (ix3 b s q)
      = layer3 (m ((c : Thread nD τ).loc main_arg0)) (m ((c : Thread nD τ).loc main_arg4)) (m ((c : Thread nD τ).loc main_arg1))
          (m ((c : Thread nD τ).loc main_arg2)) (m ((c : Thread nD τ).loc main_arg3)) (ix3 b s q) := by
  have hb : b.val < 4 := b.isLt
  have hs : s.val < 2048 := s.isLt
  have hrow : result m c (ix3 b s q) = flatOut m c (ix2 ⟨2048 * b.val + s.val, by omega⟩ q) := by
    refine shapeCast_apply _ _ _ _ ?_
    rw [Shape.rowMajor_val_three, Shape.rowMajor_val_two]
    show (2048 * b.val + s.val) * 4096 + q.val = (b.val * 2048 + s.val) * 4096 + q.val
    omega
  rw [hrow]
  refine (layer2_flat (m ((c : Thread nD τ).loc main_arg0)) (m ((c : Thread nD τ).loc main_arg4)) (flatX m c) (flatD m c)
    (narrowW m c) (narrowA m c) (narrowB m c)
    (fun b s h l => by rw [flatX_eq]; exact flatten_apply _ b s l)
    (fun b s h l => by rw [flatD_eq]; exact flatten_apply _ b s l) b s (by omega) q).trans ?_
  rw [narrowW_eq, narrowA_eq, narrowB_eq]

/-- The program's result is the layer on its arguments. -/
theorem result_is_layer (c : Dev nD) :
    result m c
      = layer3 (m ((c : Thread nD τ).loc main_arg0)) (m ((c : Thread nD τ).loc main_arg4)) (m ((c : Thread nD τ).loc main_arg1))
          (m ((c : Thread nD τ).loc main_arg2)) (m ((c : Thread nD τ).loc main_arg3)) := by
  funext i
  rw [eq_ix3 i]
  exact result_apply m c (i 0) (i 1) (i 2)

/-- The run, read: every weakly fair execution ends with the result array at the layer on the flattened arrays,
    reshaped, and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference computes the layer.

  Its eight host operations are: the dense product of the batched input with W (contracting the feature axis of both),
  the masked input, the masked input times A, that times B, the constant 1.0 broadcast, the scaling, and the sum.
  Read entry by entry over the extended reals these are the layer's formula, term for term.
-/
import proofs.«119216_j1992864825716_1_alg».proof.Proof.Gen.ReferenceIdeal.Read
import proofs.«119216_j1992864825716_1_alg».proof.Proof.LoraSpec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.LoraSpec

/-- The reference's result at entry (r, s, q) is the layer's entry. -/
theorem reference_apply (x : (⟨S4x2048x4096, .f32⟩ : BufTy).Contents (Elt Ideal))
    (w : (⟨S4096x4096, .f32⟩ : BufTy).Contents (Elt Ideal)) (a : (⟨S4096x32, .f32⟩ : BufTy).Contents (Elt Ideal))
    (b : (⟨S32x4096, .f32⟩ : BufTy).Contents (Elt Ideal)) (d : (⟨S4x2048x4096, .f32⟩ : BufTy).Contents (Elt Ideal))
    (r : Fin 4) (s : Fin 2048) (q : Fin 4096) :
    val_main_v6 (F := Ideal) x w a b d (ix3 r s q) = layer3 x d w a b (ix3 r s q) := by
  have e0l : ∀ k, lidx_main_v0 (ix3 r s q) k = ix3 r s k := fun k => funext fun e => by
    match e with | ⟨0, _⟩ => rfl | ⟨1, _⟩ => rfl | ⟨2, _⟩ => rfl
  have e0r : ∀ k, ridx_main_v0 (ix3 r s q) k = ix2 q k := fun k => funext fun e => by
    match e with | ⟨0, _⟩ => rfl | ⟨1, _⟩ => rfl
  have e3l : ∀ t, lidx_main_v3 (ix3 r s q) t = ix3 r s t := fun t => funext fun e => by
    match e with | ⟨0, _⟩ => rfl | ⟨1, _⟩ => rfl | ⟨2, _⟩ => rfl
  have e3r : ∀ t, ridx_main_v3 (ix3 r s q) t = ix2 t q := fun t => funext fun e => by
    match e with | ⟨0, _⟩ => rfl | ⟨1, _⟩ => rfl
  have e2l : ∀ (t : Fin 32) k, lidx_main_v2 (ix3 r s t) k = ix3 r s k := fun t k => funext fun e => by
    match e with | ⟨0, _⟩ => rfl | ⟨1, _⟩ => rfl | ⟨2, _⟩ => rfl
  have e2r : ∀ (t : Fin 32) k, ridx_main_v2 (ix3 r s t) k = ix2 k t := fun t k => funext fun e => by
    match e with | ⟨0, _⟩ => rfl | ⟨1, _⟩ => rfl
  rw [val_main_v6_apply, val_main_v5_apply, val_main_v0_apply, val_main_v3_apply, val_main_v4_apply, val_main_cst_apply]
  simp only [e0l, e0r, e3l, e3r, val_main_v2_apply, e2l, e2r, val_main_v1_apply, Ideal.addf_def, Ideal.mulf_def,
    Ideal.ofBits_def]
  rfl

/-- The reference's result, as a function of its five arguments, is the layer. -/
theorem reference_is_layer (x : (⟨S4x2048x4096, .f32⟩ : BufTy).Contents (Elt Ideal))
    (w : (⟨S4096x4096, .f32⟩ : BufTy).Contents (Elt Ideal)) (a : (⟨S4096x32, .f32⟩ : BufTy).Contents (Elt Ideal))
    (b : (⟨S32x4096, .f32⟩ : BufTy).Contents (Elt Ideal)) (d : (⟨S4x2048x4096, .f32⟩ : BufTy).Contents (Elt Ideal)) :
    val_main_v6 (F := Ideal) x w a b d = layer3 x d w a b := by
  funext i
  obtain ⟨r, s, q, rfl⟩ : ∃ (r : Fin 4) (s : Fin 2048) (q : Fin 4096), i = ix3 r s q := ⟨i 0, i 1, i 2, eq_ix3 i⟩
  exact reference_apply x w a b d r s q

end Cert.ReferenceIdeal.RefValue

end
-- ==== Proof.lean ====
/-
  A linear layer with a low-rank correction, x Wᵀ + (alpha / rank) ((x ∘ mask) A) B with alpha / rank = 32 / 32,
  computed two ways over a 4 x 2048 x 4096 input: a blocked kernel and a plain reference.

  The kernel flattens the input to 8192 rows, walks each tile of 1024 rows through the 4096-long shared axis in 16
  stretches of 256, and keeps two running sums per tile: the dense product x Wᵀ in the output block and the rank-32
  middle factor (x ∘ mask) A in a scratch. Both start from zero at a tile's first stretch; after the last stretch
  the scaled product of the middle factor with B is added and the block is written back. The reference contracts the
  whole shared axis at once.

  Over the extended reals a change of float format is the identity and a matrix product into a zero accumulator is the
  plain sum of products, so both programs compute, at entry (b, s, q),

      sum over l of x(b, s, l) W(q, l) + 1 * sum over t of (sum over l of (x(b, s, l) mask(b, s, l)) A(l, t)) B(t, q).

  The kernel reaches it by regrouping the sum over l into 16 consecutive stretches, each added to the sum of the ones
  before it: a law of addition alone (the first 256 (k + 1) terms are the first 256 k plus the next 256), which holds
  for all extended reals; the finiteness of the inputs is never used.

  The modules: the formula and the regrouping law; what one visit of the kernel body leaves in its two running
  values, case by case; the body's three updates entry by entry; which rows and columns each window's block holds;
  the running values as partial sums, by induction on the visit; the array the call writes and its reshape; the
  reference read entry by entry.
-/
import proofs.«119216_j1992864825716_1_alg».proof.Defs
import proofs.«119216_j1992864825716_1_alg».proof.Proof.Gen.Kernel
import proofs.«119216_j1992864825716_1_alg».proof.Proof.Gen.Kernel.Skeleton
import proofs.«119216_j1992864825716_1_alg».proof.Proof.Gen.Kernel.Launch
import proofs.«119216_j1992864825716_1_alg».proof.Proof.Gen.Kernel.Points
import proofs.«119216_j1992864825716_1_alg».proof.Proof.Gen.Kernel.Frame
import proofs.«119216_j1992864825716_1_alg».proof.Proof.Gen.KernelIdeal
import proofs.«119216_j1992864825716_1_alg».proof.Proof.Gen.KernelIdeal.Skeleton
import proofs.«119216_j1992864825716_1_alg».proof.Proof.Gen.KernelIdeal.Launch
import proofs.«119216_j1992864825716_1_alg».proof.Proof.Gen.KernelIdeal.Points
import proofs.«119216_j1992864825716_1_alg».proof.Proof.Gen.KernelIdeal.Frame
import proofs.«119216_j1992864825716_1_alg».proof.Proof.Gen.ReferenceIdeal
import proofs.«119216_j1992864825716_1_alg».proof.Proof.Gen.ReferenceIdeal.Run
import proofs.«119216_j1992864825716_1_alg».proof.Proof.Gen.ReferenceIdeal.Read
import proofs.«119216_j1992864825716_1_alg».proof.Proof.Gen.Pre_finite_inputs
import proofs.«119216_j1992864825716_1_alg».proof.Proof.Result
import proofs.«119216_j1992864825716_1_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From arguments that agree, the kernel ends with the layer on the flattened arrays, reshaped, and the reference
    with its eight operations' term; both are the layer's formula on the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v6_eq _ _ _ _ _).trans ?_
  rw [Cert.ReferenceIdeal.RefValue.reference_is_layer, (hagree c).1, (hagree c).2.1, (hagree c).2.2.1,
    (hagree c).2.2.2.1, (hagree c).2.2.2.2]
  exact (Cert.KernelIdeal.Result.result_is_layer m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
